-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S512x4096 32) (main_arg2 : IVec S32x512 32) (main_arg3 : FVec F S32x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg3
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S1x1x8 : Shape := ⟨3, ![1, 1, 8]⟩
abbrev S32x512x1 : Shape := ⟨3, ![32, 512, 1]⟩
abbrev S32x512x8 : Shape := ⟨3, ![32, 512, 8]⟩
abbrev S1x4096 : Shape := ⟨2, ![1, 4096]⟩
abbrev S512x512 : Shape := ⟨2, ![512, 512]⟩
abbrev S1x512 : Shape := ⟨2, ![1, 512]⟩
abbrev S512x1024 : Shape := ⟨2, ![512, 1024]⟩
abbrev S128x512 : Shape := ⟨2, ![128, 512]⟩
abbrev S8x512 : Shape := ⟨2, ![8, 512]⟩
abbrev S128x1x512 : Shape := ⟨3, ![128, 1, 512]⟩
abbrev S128x8x512 : Shape := ⟨3, ![128, 8, 512]⟩
abbrev S1024x512 : Shape := ⟨2, ![1024, 512]⟩
abbrev S8x128x512 : Shape := ⟨3, ![8, 128, 512]⟩
abbrev S8x1x512 : Shape := ⟨3, ![8, 1, 512]⟩

abbrev nBuf : Space → Nat
  | .hbm => 22
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x1x8, .i32⟩
  | .hbm, ⟨10, _⟩ => ⟨S32x512x1, .i32⟩
  | .hbm, ⟨11, _⟩ => ⟨S32x512x8, .i32⟩
  | .hbm, ⟨12, _⟩ => ⟨S32x512x8, .i32⟩
  | .hbm, ⟨13, _⟩ => ⟨S32x512x8, .i32⟩
  | .hbm, ⟨14, _⟩ => ⟨S_, .i32⟩
  | .hbm, ⟨15, _⟩ => ⟨S32x512x8, .i32⟩
  | .hbm, ⟨16, _⟩ => ⟨S32x512x8, .i32⟩
  | .hbm, ⟨17, _⟩ => ⟨S32x4096, .i32⟩
  | .hbm, ⟨18, _⟩ => ⟨S32x4096, .f32⟩
  | .hbm, ⟨19, _⟩ => ⟨S1x4096, .f32⟩
  | .hbm, ⟨20, _⟩ => ⟨S8192x4096, .bf16⟩
  | .hbm, ⟨21, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x512, .i32⟩
  | .local _ .vmem, ⟨3, _⟩ => ⟨S512x512, .i32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  let c1024_i32 : BitVec 32 := 1024#32
  let v7 : BitVec 32 := Scalar.muli c0_i32 c1024_i32
  v7
def k0_mult2 : BitVec 32 :=
  let c0_i32 : BitVec 32 := 0#32
  let c128_i32 : BitVec 32 := 128#32
  let v9 : BitVec 32 := Scalar.muli c0_i32 c128_i32
  v9
def k0_mult3 : BitVec 32 :=
  let c0_i32 : BitVec 32 := 0#32
  let c8_i32 : BitVec 32 := 8#32
  let v11 : BitVec 32 := Scalar.muli c0_i32 c8_i32
  v11
def k0_off1 (c0_i32 : BitVec 32) : Fin 2 → Nat :=
  let c0_3 : Index := 0#32
  let c1024_i32 : BitVec 32 := 1024#32
  let v7 : BitVec 32 := Scalar.muli c0_i32 c1024_i32
  let v8 : BitVec 32 := v7
  let v13 : Index := Scalar.indexCast v8
  ![0, v13.toNat]
def k0_off2 (c0_i32 : BitVec 32) : Fin 2 → Nat :=
  let c128_i32 : BitVec 32 := 128#32
  let v9 : BitVec 32 := Scalar.muli c0_i32 c128_i32
  let v10 : BitVec 32 := v9
  let v16 : Index := Scalar.indexCast v10
  let c0_4 : Index := 0#32
  ![v16.toNat, 0]
def k0_off3 (c0_i32 : BitVec 32) : Fin 2 → Nat :=
  let c8_i32 : BitVec 32 := 8#32
  let v11 : BitVec 32 := Scalar.muli c0_i32 c8_i32
  let v12 : BitVec 32 := v11
  let v18 : Index := Scalar.indexCast v12
  let c0_5 : Index := 0#32
  ![v18.toNat, 0]
def k0_mult4 : BitVec 32 :=
  let c1_i32 : BitVec 32 := 1#32
  let c1024_i32_20 : BitVec 32 := 1024#32
  let v89 : BitVec 32 := Scalar.muli c1_i32 c1024_i32_20
  v89
def k0_mult5 : BitVec 32 :=
  let c1_i32 : BitVec 32 := 1#32
  let c128_i32_21 : BitVec 32 := 128#32
  let v91 : BitVec 32 := Scalar.muli c1_i32 c128_i32_21
  v91
def k0_mult6 : BitVec 32 :=
  let c1_i32 : BitVec 32 := 1#32
  let c8_i32_22 : BitVec 32 := 8#32
  let v93 : BitVec 32 := Scalar.muli c1_i32 c8_i32_22
  v93
def k0_mult7 : BitVec 32 :=
  let c2_i32 : BitVec 32 := 2#32
  let c1024_i32_48 : BitVec 32 := 1024#32
  let v171 : BitVec 32 := Scalar.muli c2_i32 c1024_i32_48
  v171
def k0_mult8 : BitVec 32 :=
  let c2_i32 : BitVec 32 := 2#32
  let c128_i32_49 : BitVec 32 := 128#32
  let v173 : BitVec 32 := Scalar.muli c2_i32 c128_i32_49
  v173
def k0_mult9 : BitVec 32 :=
  let c2_i32 : BitVec 32 := 2#32
  let c8_i32_50 : BitVec 32 := 8#32
  let v175 : BitVec 32 := Scalar.muli c2_i32 c8_i32_50
  v175
def k0_mult10 : BitVec 32 :=
  let c3_i32 : BitVec 32 := 3#32
  let c1024_i32_76 : BitVec 32 := 1024#32
  let v253 : BitVec 32 := Scalar.muli c3_i32 c1024_i32_76
  v253
def k0_mult11 : BitVec 32 :=
  let c3_i32 : BitVec 32 := 3#32
  let c128_i32_77 : BitVec 32 := 128#32
  let v255 : BitVec 32 := Scalar.muli c3_i32 c128_i32_77
  v255
def k0_mult12 : BitVec 32 :=
  let c3_i32 : BitVec 32 := 3#32
  let c8_i32_78 : BitVec 32 := 8#32
  let v257 : BitVec 32 := Scalar.muli c3_i32 c8_i32_78
  v257
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8 : S_.BroadcastsInDim S8 (![] : Fin 0 → Fin S8.rank)
  bcast_S8_S1x1x8_2 : S8.BroadcastsInDim S1x1x8 (![2] : Fin 1 → Fin S1x1x8.rank)
  bcast_S32x512_S32x512x1_0_1 : S32x512.BroadcastsInDim S32x512x1 (![0, 1] : Fin 2 → Fin S32x512x1.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  shapeCasts_S4096_S1x4096 : S4096.ShapeCasts S1x4096
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S512x1024 : 0 < S512x1024.numel
  shapeCasts_S512x1024_S512x1024 : S512x1024.ShapeCasts S512x1024
  h_S128x512 : 0 < S128x512.numel
  h_S8x512 : 0 < S8x512.numel
  shapeCasts_S8x512_S8x512 : S8x512.ShapeCasts S8x512
  shapeCasts_S128x512_S128x1x512 : S128x512.ShapeCasts S128x1x512
  concatenates_S128x1x512_S128x1x512_S128x1x512_S128x1x512_S128x1x512_S128x1x512_S128x1x512_S128x1x512_S128x8x512_d1 : Shape.Concatenates [S128x1x512, S128x1x512, S128x1x512, S128x1x512, S128x1x512, S128x1x512, S128x1x512, S128x1x512] S128x8x512 1
  shapeCasts_S128x8x512_S1024x512 : S128x8x512.ShapeCasts S1024x512
  shapeCasts_S1024x512_S8x128x512 : S1024x512.ShapeCasts S8x128x512
  shapeCasts_S8x512_S8x1x512 : S8x512.ShapeCasts S8x1x512
  broadcasts_S8x1x512_S8x128x512 : S8x1x512.Broadcasts S8x128x512
  shapeCasts_S8x128x512_S1024x512 : S8x128x512.ShapeCasts S1024x512
  dot_S512x1024_S1024x512_S512x512_1_0_0_1_n_n_wf : DotDims.WF S512x1024 S1024x512 S512x512 [1] [0] [0] [1] [] []
  hrank0 : 0 < grid0.rank
  k0_mult1_dvd : 1024 ∣ k0_mult1.toNat
  k0_mult2_dvd : 128 ∣ k0_mult2.toNat
  k0_mult3_dvd : 8 ∣ k0_mult3.toNat
  k0_off1_inb : ∀ (r : Fin 4), ∀ a, (k0_off1 (BitVec.ofNat 32 r.val)) a + S512x1024.size a ≤ S512x4096.size a
  k0_off2_inb : ∀ (r : Fin 4), ∀ a, (k0_off2 (BitVec.ofNat 32 r.val)) a + S128x512.size a ≤ S512x512.size a
  k0_off3_inb : ∀ (r : Fin 4), ∀ a, (k0_off3 (BitVec.ofNat 32 r.val)) a + S8x512.size a ≤ S32x512.size a
  k0_mult4_dvd : 1024 ∣ k0_mult4.toNat
  k0_mult5_dvd : 128 ∣ k0_mult5.toNat
  k0_mult6_dvd : 8 ∣ k0_mult6.toNat
  k0_mult7_dvd : 1024 ∣ k0_mult7.toNat
  k0_mult8_dvd : 128 ∣ k0_mult8.toNat
  k0_mult9_dvd : 8 ∣ k0_mult9.toNat
  k0_mult10_dvd : 1024 ∣ k0_mult10.toNat
  k0_mult11_dvd : 128 ∣ k0_mult11.toNat
  k0_mult12_dvd : 8 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x4096.size a
  hwx0_1 : ∀ i : grid0.Coords, EltTy.bits .i32 = 32 ∨ (Rect.block (s := S512x4096) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x4096.size a
  hwx0_2 : ∀ i : grid0.Coords, EltTy.bits .f32 = 32 ∨ (Rect.block (s := S32x4096) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x4096.size a
  hwx0_3 : ∀ i : grid0.Coords, EltTy.bits .f32 = 32 ∨ (Rect.block (s := S32x4096) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v13) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S1x8x1 : Shape := ⟨3, ![1, 8, 1]⟩
abbrev S512x1x4096 : Shape := ⟨3, ![512, 1, 4096]⟩
abbrev S512x8x4096 : Shape := ⟨3, ![512, 8, 4096]⟩
abbrev S4096x4096 : Shape := ⟨2, ![4096, 4096]⟩
abbrev S1x1x8 : Shape := ⟨3, ![1, 1, 8]⟩
abbrev S32x512x1 : Shape := ⟨3, ![32, 512, 1]⟩
abbrev S32x512x8 : Shape := ⟨3, ![32, 512, 8]⟩
abbrev S32x128x4096 : Shape := ⟨3, ![32, 128, 4096]⟩
abbrev S32x1x4096 : Shape := ⟨3, ![32, 1, 4096]⟩
abbrev S1x4096 : Shape := ⟨2, ![1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8x1, .i32⟩
  | .hbm, ⟨10, _⟩ => ⟨S512x1x4096, .i32⟩
  | .hbm, ⟨11, _⟩ => ⟨S512x8x4096, .i32⟩
  | .hbm, ⟨12, _⟩ => ⟨S512x8x4096, .i32⟩
  | .hbm, ⟨13, _⟩ => ⟨S512x8x4096, .i32⟩
  | .hbm, ⟨14, _⟩ => ⟨S_, .i32⟩
  | .hbm, ⟨15, _⟩ => ⟨S512x8x4096, .i32⟩
  | .hbm, ⟨16, _⟩ => ⟨S512x8x4096, .i32⟩
  | .hbm, ⟨17, _⟩ => ⟨S4096x4096, .i32⟩
  | .hbm, ⟨18, _⟩ => ⟨S4096x4096, .f32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S1x1x8, .i32⟩
  | .hbm, ⟨24, _⟩ => ⟨S32x512x1, .i32⟩
  | .hbm, ⟨25, _⟩ => ⟨S32x512x8, .i32⟩
  | .hbm, ⟨26, _⟩ => ⟨S32x512x8, .i32⟩
  | .hbm, ⟨27, _⟩ => ⟨S32x512x8, .i32⟩
  | .hbm, ⟨28, _⟩ => ⟨S_, .i32⟩
  | .hbm, ⟨29, _⟩ => ⟨S32x512x8, .i32⟩
  | .hbm, ⟨30, _⟩ => ⟨S32x512x8, .i32⟩
  | .hbm, ⟨31, _⟩ => ⟨S32x4096, .i32⟩
  | .hbm, ⟨32, _⟩ => ⟨S32x4096, .f32⟩
  | .hbm, ⟨33, _⟩ => ⟨S32x128x4096, .f32⟩
  | .hbm, ⟨34, _⟩ => ⟨S32x1x4096, .f32⟩
  | .hbm, ⟨35, _⟩ => ⟨S32x1x4096, .f32⟩
  | .hbm, ⟨36, _⟩ => ⟨S32x128x4096, .f32⟩
  | .hbm, ⟨37, _⟩ => ⟨S32x128x4096, .f32⟩
  | .hbm, ⟨38, _⟩ => ⟨S32x128x4096, .f32⟩
  | .hbm, ⟨39, _⟩ => ⟨S32x128x4096, .f32⟩
  | .hbm, ⟨40, _⟩ => ⟨S32x128x4096, .f32⟩
  | .hbm, ⟨41, _⟩ => ⟨S32x128x4096, .f32⟩
  | .hbm, ⟨42, _⟩ => ⟨S32x128x4096, .f32⟩
  | .hbm, ⟨43, _⟩ => ⟨S32x128x4096, .f32⟩
  | .hbm, ⟨44, _⟩ => ⟨S32x128x4096, .f32⟩
  | .hbm, ⟨45, _⟩ => ⟨S32x128x4096, .f32⟩
  | .hbm, ⟨46, _⟩ => ⟨S32x128x4096, .f32⟩
  | .hbm, ⟨47, _⟩ => ⟨S32x128x4096, .f32⟩
  | .hbm, ⟨48, _⟩ => ⟨S32x128x4096, .f32⟩
  | .hbm, ⟨49, _⟩ => ⟨S32x128x4096, .f32⟩
  | .hbm, ⟨50, _⟩ => ⟨S32x128x4096, .f32⟩
  | .hbm, ⟨51, _⟩ => ⟨S4096x4096, .f32⟩
  | .hbm, ⟨52, _⟩ => ⟨S8192x4096, .f32⟩
  | .hbm, ⟨53, _⟩ => ⟨S1x4096, .f32⟩
  | .hbm, ⟨54, _⟩ => ⟨S8192x4096, .f32⟩
  | .hbm, ⟨55, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S512x4096_S512x1x4096_0_2 : S512x4096.BroadcastsInDim S512x1x4096 (![0, 2] : Fin 2 → Fin S512x1x4096.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S8_S1x1x8_2 : S8.BroadcastsInDim S1x1x8 (![2] : Fin 1 → Fin S1x1x8.rank)
  bcast_S32x512_S32x512x1_0_1 : S32x512.BroadcastsInDim S32x512x1 (![0, 1] : Fin 2 → Fin S32x512x1.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  shapeCasts_S4096x4096_S32x128x4096 : S4096x4096.ShapeCasts S32x128x4096
  shapeCasts_S32x4096_S32x1x4096 : S32x4096.ShapeCasts S32x1x4096
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Windows.lean ====
/-
  The windows of the one pallas_call, read at an index.

  The grid is 16 × 8; point `t` has coordinates `(t / 8, t % 8)`. The block of `x` moves with the first coordinate
  (512 rows, all 4096 columns); the packed weights, zero points, scales and bias move with the second (all rows, 512
  columns); the output block is `(t / 8, t % 8)` of 512 × 512. Every index of the output lies in exactly one block.
-/
import proofs.«420042_j28698971472128_3_alg».proof.Proof.Gen.KernelIdeal.Value
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Windows

open Cert.KernelIdeal Cert.KernelIdeal.Gen

variable {F : FTy → Type} [FloatOps F]
variable (m : (ℓ : Loc nD τ sig) → Buf (Elt F) ℓ)

theorem N_eq : cfg0.N = 128 := N_0

theorem row_lt (t : Fin cfg0.N) (r : Fin 512) : 512 * (t.val / 8) + r.val < 8192 := by
  have h : t.val < 128 := lt_of_lt_of_eq t.isLt N_eq
  have := r.isLt; omega
theorem col_lt (t : Fin cfg0.N) (n : Fin 512) : 512 * (t.val % 8) + n.val < 4096 := by
  have := n.isLt; omega

/-- The input blocks at point `t`, named at their literal types. -/
abbrev xblk (c : Dev nD) (t : Fin cfg0.N) : Vec F S512x4096 .bf16 := iblk m c 0 t
abbrev qblk (c : Dev nD) (t : Fin cfg0.N) : Vec F S512x512 .i32 := iblk m c 1 t
abbrev zblk (c : Dev nD) (t : Fin cfg0.N) : Vec F S32x512 .f32 := iblk m c 2 t
abbrev sblk (c : Dev nD) (t : Fin cfg0.N) : Vec F S32x512 .f32 := iblk m c 3 t
abbrev bblk (c : Dev nD) (t : Fin cfg0.N) : Vec F S1x512 .f32 := iblk m c 4 t

/-- The arrays the windows stage, named at their literal types. -/
abbrev xarr (c : Dev nD) : Vec F S8192x4096 .bf16 := V m c main_v13
abbrev qarr (c : Dev nD) : Vec F S512x4096 .i32 := V m c main_arg1
abbrev zarr (c : Dev nD) : Vec F S32x4096 .f32 := V m c main_v11
abbrev sarr (c : Dev nD) : Vec F S32x4096 .f32 := V m c main_arg3
abbrev barr (c : Dev nD) : Vec F S1x4096 .f32 := V m c main_v12

/-- The index maps over the 128 grid points: window 0 follows the first grid coordinate, windows 1 to 4 the
    second, the output window both. -/
private theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = t.val / 8 ∧ win0_5.index t (1 : Fin 2) = t.val % 8 :=
  (by decide +kernel : ∀ t : Fin grid0.N, _)

theorem xblk_apply (c : Dev nD) (t : Fin cfg0.N) (r : Fin 512) (k : Fin 4096) :
    xblk m c t (ix2 r k) = xarr m c (ix2 ⟨512 * (t.val / 8) + r.val, row_lt t r⟩ k) := by
  obtain ⟨e0, e1, -⟩ := idx_facts t
  show V m c main_v13 (((cfg0.win 0).blk t).view.emb (ix2 r k)) = _
  refine congrArg _ ?_
  funext a; apply Fin.ext
  match a with
  | ⟨0, _⟩ => show win0_0.index t (0 : Fin 2) * 512 + 1 * r.val = 512 * (t.val / 8) + r.val; omega
  | ⟨1, _⟩ => show win0_0.index t (1 : Fin 2) * 4096 + 1 * k.val = k.val; omega

theorem qblk_apply (c : Dev nD) (t : Fin cfg0.N) (p : Fin 512) (n : Fin 512) :
    qblk m c t (ix2 p n) = qarr m c (ix2 p ⟨512 * (t.val % 8) + n.val, col_lt t n⟩) := by
  obtain ⟨-, -, e0, e1, -⟩ := idx_facts t
  show V m c main_arg1 (((cfg0.win 1).blk t).view.emb (ix2 p n)) = _
  refine congrArg _ ?_
  funext a; apply Fin.ext
  match a with
  | ⟨0, _⟩ => show win0_1.index t (0 : Fin 2) * 512 + 1 * p.val = p.val; omega
  | ⟨1, _⟩ => show win0_1.index t (1 : Fin 2) * 512 + 1 * n.val = 512 * (t.val % 8) + n.val; omega

theorem zblk_apply (c : Dev nD) (t : Fin cfg0.N) (g : Fin 32) (n : Fin 512) :
    zblk m c t (ix2 g n) = zarr m c (ix2 g ⟨512 * (t.val % 8) + n.val, col_lt t n⟩) := by
  obtain ⟨-, -, -, -, e0, e1, -⟩ := idx_facts t
  show V m c main_v11 (((cfg0.win 2).blk t).view.emb (ix2 g n)) = _
  refine congrArg _ ?_
  funext a; apply Fin.ext
  match a with
  | ⟨0, _⟩ => show win0_2.index t (0 : Fin 2) * 32 + 1 * g.val = g.val; omega
  | ⟨1, _⟩ => show win0_2.index t (1 : Fin 2) * 512 + 1 * n.val = 512 * (t.val % 8) + n.val; omega

theorem sblk_apply (c : Dev nD) (t : Fin cfg0.N) (g : Fin 32) (n : Fin 512) :
    sblk m c t (ix2 g n) = sarr m c (ix2 g ⟨512 * (t.val % 8) + n.val, col_lt t n⟩) := by
  obtain ⟨-, -, -, -, -, -, e0, e1, -⟩ := idx_facts t
  show V m c main_arg3 (((cfg0.win 3).blk t).view.emb (ix2 g n)) = _
  refine congrArg _ ?_
  funext a; apply Fin.ext
  match a with
  | ⟨0, _⟩ => show win0_3.index t (0 : Fin 2) * 32 + 1 * g.val = g.val; omega
  | ⟨1, _⟩ => show win0_3.index t (1 : Fin 2) * 512 + 1 * n.val = 512 * (t.val % 8) + n.val; omega

theorem bblk_apply (c : Dev nD) (t : Fin cfg0.N) (z : Fin 1) (n : Fin 512) :
    bblk m c t (ix2 z n) = barr m c (ix2 z ⟨512 * (t.val % 8) + n.val, col_lt t n⟩) := by
  obtain ⟨-, -, -, -, -, -, -, -, e0, e1, -⟩ := idx_facts t
  show V m c main_v12 (((cfg0.win 4).blk t).view.emb (ix2 z n)) = _
  refine congrArg _ ?_
  funext a; apply Fin.ext
  match a with
  | ⟨0, _⟩ => show win0_4.index t (0 : Fin 2) * 1 + 1 * z.val = z.val; omega
  | ⟨1, _⟩ => show win0_4.index t (1 : Fin 2) * 512 + 1 * n.val = 512 * (t.val % 8) + n.val; omega

/-- The output block of point `t`, inside the result array. -/
theorem oblk_emb (t : Fin cfg0.N) (r n : Fin 512) :
    ((cfg0.win 5).blk t).view.emb (ix2 r n) = (ix2 ⟨512 * (t.val / 8) + r.val, row_lt t r⟩ ⟨512 * (t.val % 8) + n.val, col_lt t n⟩ : S8192x4096.Idx) := by
  obtain ⟨-, -, -, -, -, -, -, -, -, -, e0, e1⟩ := idx_facts t
  funext a; apply Fin.ext
  match a with
  | ⟨0, _⟩ => show win0_5.index t (0 : Fin 2) * 512 + 1 * r.val = 512 * (t.val / 8) + r.val; omega
  | ⟨1, _⟩ => show win0_5.index t (1 : Fin 2) * 512 + 1 * n.val = 512 * (t.val % 8) + n.val; omega

/-- Every point writes its block back. -/
theorem flush5 (t : Fin cfg0.N) : (cfg0.win 5).flush t = true := by
  exact flush0_5 t

/-- An index of the result array is in point `t`'s block iff each coordinate is in the block's range on its axis. -/
private theorem mem_blk5 (t : Fin cfg0.N) (i : S8192x4096.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v14).slice (win0_5.rect t)).set ↔ _
  rw [View.set_slice_whole, Rect.mem_set_unit]
  exact Iff.rfl

/-- Every index of the result array lies in some point's block. -/
theorem cover5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : 8 * ((i 0).val / 512) + (i 1).val / 512 < cfg0.N := by rw [N_eq]; omega
  obtain ⟨t, ht⟩ : ∃ t : Fin cfg0.N, t.val = 8 * ((i 0).val / 512) + (i 1).val / 512 := ⟨⟨_, hN⟩, rfl⟩
  refine ⟨t, flush0_5 t, ?_⟩
  rw [mem_blk5]
  obtain ⟨-, -, -, -, -, -, -, -, -, -, e0, e1⟩ := idx_facts t
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 512 ≤ (i 1).val ∧ (i 1).val < win0_5.index t (1 : Fin 2) * 512 + 512
    omega

end Cert.KernelIdeal.Windows

end
-- ==== Proof.Spec.lean ====
/-
  What both programs compute, index by index, over the extended reals.

  A weight word packs eight 4-bit fields; field `p` of word `w` is `(w >> 4p) & 15`, an integer in [0, 15].
  Row `k` of the dequantized weight matrix takes field `k % 8` of the packed row `k / 8`; its zero point and scale are
  those of the group `k / 128`; the zero point of column `n` is field `n % 8` of the packed column `n / 8`.
  The weight is `(field − zero) · scale`, and the result is `x · W + bias`:
      out (i, n) = (∑ k, x (i, k) · ((q (k, n) − z (k / 128, n)) · s (k / 128, n))) + bias n.
-/
import Idealize.ShloMosaic.PureOps.Ideal
import Idealize.ShloMosaic.Lib.ValueIdx

noncomputable section

namespace Cert.QLinear

open Idealize.ShloMosaic Idealize.ShloMosaic.ValueIdx

/-- Field `p` of a packed word: bits `4p … 4p+3`, as a word. -/
def nib (w : BitVec 32) (p : Fin 8) : BitVec 32 :=
  IntOp.andi (IntOp.shrsi .vector w (BitVec.ofNat 32 (4 * p.val))) 15#32

/-- The same as an extended real: the integer the field denotes. -/
def nibR (w : BitVec 32) (p : Fin 8) : EReal := (((nib w p).toInt : ℝ) : EReal)

theorem div8_lt {k : Nat} (h : k < 4096) : k / 8 < 512 := by omega
theorem div128_lt {k : Nat} (h : k < 4096) : k / 128 < 32 := by omega
theorem mod8_lt (k : Nat) : k % 8 < 8 := Nat.mod_lt _ (by decide)

/-- The quantized weight of row `k`, column `n`. -/
def qv (qw : (⟨2, ![512, 4096]⟩ : Shape).Idx → BitVec 32) (k n : Fin 4096) : EReal :=
  nibR (qw (ix2 ⟨k.val / 8, div8_lt k.isLt⟩ n)) ⟨k.val % 8, mod8_lt _⟩

/-- The zero point of group `g`, column `n`. -/
def zv (qz : (⟨2, ![32, 512]⟩ : Shape).Idx → BitVec 32) (g : Fin 32) (n : Fin 4096) : EReal :=
  nibR (qz (ix2 g ⟨n.val / 8, div8_lt n.isLt⟩)) ⟨n.val % 8, mod8_lt _⟩

/-- The dequantized weight of row `k`, column `n`: `(q − z) · s` with the zero point and scale of `k`'s group. -/
def wt (qw : (⟨2, ![512, 4096]⟩ : Shape).Idx → BitVec 32) (qz : (⟨2, ![32, 512]⟩ : Shape).Idx → BitVec 32)
    (sc : (⟨2, ![32, 4096]⟩ : Shape).Idx → EReal) (k n : Fin 4096) : EReal :=
  (qv qw k n - zv qz ⟨k.val / 128, div128_lt k.isLt⟩ n) * sc (ix2 ⟨k.val / 128, div128_lt k.isLt⟩ n)

/-- The quantized linear layer: `x · W + bias`. -/
def G (x : (⟨2, ![8192, 4096]⟩ : Shape).Idx → EReal) (qw : (⟨2, ![512, 4096]⟩ : Shape).Idx → BitVec 32)
    (qz : (⟨2, ![32, 512]⟩ : Shape).Idx → BitVec 32) (sc : (⟨2, ![32, 4096]⟩ : Shape).Idx → EReal)
    (b : (⟨1, ![4096]⟩ : Shape).Idx → EReal) : (⟨2, ![8192, 4096]⟩ : Shape).Idx → EReal :=
  fun j => (∑ k : Fin 4096, x (ix2 (j 0) k) * wt qw qz sc k (j 1)) + b (ix1 (j 1))

end Cert.QLinear

end
-- ==== Proof.Chunk.lean ====
/-
  One K-chunk of the kernel's accumulation, as one pure function, and what it is at an index.

  The body runs four chunks. In each, a [128, 512] tile of packed words is unpacked into its eight 4-bit fields,
  the fields are interleaved into 1024 rows (row `8·r + p` is field `p` of packed row `r`), the rows are cut into
  8 groups of 128, each group has its zero-point row subtracted and is scaled by its scale row, and the [512, 1024]
  tile of `x` is multiplied in and added onto the accumulator:
      step (r, n) = acc (r, n) + ∑ kk < 1024, x (r, kk) · ((field (kk % 8) of q (kk / 8, n) − z (kk / 128, n)) · s (kk / 128, n)).
-/
import proofs.«420042_j28698971472128_3_alg».proof.Proof.Gen.KernelIdeal.Skeleton
import proofs.«420042_j28698971472128_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx Cert.QLinear

variable {F : FTy → Type} [FloatOps F]

/-- The dequantized [1024, 512] weight tile of one chunk: the eight fields of the packed tile `q` interleaved along
    the rows, regrouped by 128 rows, each group minus its zero-point row times its scale row. -/
def dequant (q : IVec S128x512 32) (zb sb : FVec F S8x512 .bf16) : FVec F S1024x512 .bf16 :=
  shapeCast S1024x512
    (mulf
      (subf
        (shapeCast S8x128x512
          (shapeCast S1024x512
            (concatenate S128x8x512 1 [
      ⟨S128x1x512, shapeCast S128x1x512 (sitofp .bf16 (andi (shrsi q (broadcast S128x512 0#32)) (broadcast S128x512 15#32))) shapeCasts_S128x512_S128x1x512⟩,
      ⟨S128x1x512, shapeCast S128x1x512 (sitofp .bf16 (andi (shrsi q (broadcast S128x512 4#32)) (broadcast S128x512 15#32))) shapeCasts_S128x512_S128x1x512⟩,
      ⟨S128x1x512, shapeCast S128x1x512 (sitofp .bf16 (andi (shrsi q (broadcast S128x512 8#32)) (broadcast S128x512 15#32))) shapeCasts_S128x512_S128x1x512⟩,
      ⟨S128x1x512, shapeCast S128x1x512 (sitofp .bf16 (andi (shrsi q (broadcast S128x512 12#32)) (broadcast S128x512 15#32))) shapeCasts_S128x512_S128x1x512⟩,
      ⟨S128x1x512, shapeCast S128x1x512 (sitofp .bf16 (andi (shrsi q (broadcast S128x512 16#32)) (broadcast S128x512 15#32))) shapeCasts_S128x512_S128x1x512⟩,
      ⟨S128x1x512, shapeCast S128x1x512 (sitofp .bf16 (andi (shrsi q (broadcast S128x512 20#32)) (broadcast S128x512 15#32))) shapeCasts_S128x512_S128x1x512⟩,
      ⟨S128x1x512, shapeCast S128x1x512 (sitofp .bf16 (andi (shrsi q (broadcast S128x512 24#32)) (broadcast S128x512 15#32))) shapeCasts_S128x512_S128x1x512⟩,
      ⟨S128x1x512, shapeCast S128x1x512 (sitofp .bf16 (andi (shrsi q (broadcast S128x512 28#32)) (broadcast S128x512 15#32))) shapeCasts_S128x512_S128x1x512⟩]
              concatenates_S128x1x512_S128x1x512_S128x1x512_S128x1x512_S128x1x512_S128x1x512_S128x1x512_S128x1x512_S128x8x512_d1)
            shapeCasts_S128x8x512_S1024x512)
          shapeCasts_S1024x512_S8x128x512)
        (broadcastTo S8x128x512 (shapeCast S8x1x512 zb shapeCasts_S8x512_S8x1x512) broadcasts_S8x1x512_S8x128x512))
      (broadcastTo S8x128x512 (shapeCast S8x1x512 sb shapeCasts_S8x512_S8x1x512) broadcasts_S8x1x512_S8x128x512))
    shapeCasts_S8x128x512_S1024x512

/-- One chunk's step: the accumulator plus the tile of `x` times the dequantized weight tile. -/
def step (xb : FVec F S512x1024 .bf16) (q : IVec S128x512 32) (zb sb : FVec F S8x512 .bf16)
    (acc : FVec F S512x512 .f32) : FVec F S512x512 .f32 :=
  addf acc (matmul dot_S512x1024_S1024x512_S512x512_1_0_0_1_n_n none xb (dequant q zb sb) (constant S512x512 .f32 0x00000000#32))

/-- The four chunks' payloads are this one function: they differ only in where the printed text was cut. -/
theorem pay9_eq (xb : FVec F S512x1024 .bf16) (q : IVec S128x512 32) (zb sb : FVec F S8x512 .bf16) (acc : FVec F S512x512 .f32) :
    k0_pay9 xb q zb sb (k0_pay6 q) (k0_pay7 q) (k0_pay8 (F := F) q) acc = step xb q zb sb acc := rfl

theorem pay18_eq (xb : FVec F S512x1024 .bf16) (q : IVec S128x512 32) (zb sb : FVec F S8x512 .bf16) (acc : FVec F S512x512 .f32) :
    k0_pay18 xb q zb sb (k0_pay14 q) (k0_pay15 q) (k0_pay16 q) (k0_pay17 q) acc
      = shapeCast S512x512 (step xb q zb sb acc) shapeCasts_S512x512_S512x512 := rfl

theorem pay27_eq (xb : FVec F S512x1024 .bf16) (q : IVec S128x512 32) (zb sb : FVec F S8x512 .bf16) (acc : FVec F S512x512 .f32) :
    k0_pay27 xb q zb sb (k0_pay22 q) (k0_pay23 q) (k0_pay24 q) (k0_pay25 q) (k0_pay26 q) 20#32 acc
      = shapeCast S512x512 (step xb q zb sb acc) shapeCasts_S512x512_S512x512 := rfl

theorem pay1_eq (xb : FVec F S512x1024 .bf16) (q : IVec S128x512 32) (zb sb : FVec F S8x512 .bf16) (acc : FVec F S512x512 .f32) :
    k0_pay1 xb q zb sb (k0_pay31 q) (k0_pay32 q) (k0_pay33 q) (k0_pay34 q) (k0_pay35 q) (k0_pay36 q) k0_pay37 acc
      = shapeCast S512x512 (step xb q zb sb acc) shapeCasts_S512x512_S512x512 := rfl

end Cert.KernelIdeal.Chunk

end
-- ==== Proof.Body.lean ====
/-
  What the kernel's body leaves in the output block, as one pure function of the five input blocks.

  The body stores the bias row broadcast over the accumulator, then four times loads a [512, 1024] tile of `x`,
  a [128, 512] tile of packed weights and the matching 8 zero-point and scale rows, adds that chunk's product onto
  the accumulator, and finally copies the accumulator to the output block. Every store covers its whole buffer, so
  each load of the accumulator reads exactly what the store before it wrote: the block is the four chunk steps
  applied in turn to the broadcast bias.
-/
import proofs.«420042_j28698971472128_3_alg».proof.Proof.Gen.KernelIdeal.Frame
import proofs.«420042_j28698971472128_3_alg».proof.Proof.Chunk
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen Cert.KernelIdeal.Chunk

variable {F : FTy → Type} [FloatOps F]

theorem hz : (![0, 0] : Fin 2 → Nat) = fun _ => 0 := funext fun a => by fin_cases a <;> rfl

/-- A load of the whole buffer after a whole-buffer store that came LAST reads that store's payload, whatever
    was stored before it. -/
theorem readCov_cons_unit_zero {Val : EltTy → Type} {S : Shape} {e : EltTy} [∀ e, Nonempty (Val e)] {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- Chunk `c`'s tile of the `x` block: columns `1024·c … 1024·c + 1023`. -/
abbrev xTile (x0 : Vec F S512x4096 .bf16) (o : Nat) (h : ∀ a, (![0, o] : Fin 2 → Nat) a + S512x1024.size a ≤ S512x4096.size a) :
    Vec F S512x1024 .bf16 := View.ld x0 (Rect.unit ![0, o] S512x1024.size h)
/-- Chunk `c`'s tile of the packed weight block: packed rows `128·c … 128·c + 127`. -/
abbrev qTile (x1 : Vec F S512x512 .i32) (o : Nat) (h : ∀ a, (![o, 0] : Fin 2 → Nat) a + S128x512.size a ≤ S512x512.size a) :
    Vec F S128x512 .i32 := View.ld x1 (Rect.unit ![o, 0] S128x512.size h)
/-- Chunk `c`'s eight rows of a per-group block (zero points or scales): rows `8·c … 8·c + 7`. -/
abbrev gTile (x2 : Vec F S32x512 .f32) (o : Nat) (h : ∀ a, (![o, 0] : Fin 2 → Nat) a + S8x512.size a ≤ S32x512.size a) :
    Vec F S8x512 .f32 := View.ld x2 (Rect.unit ![o, 0] S8x512.size h)

/-- The block the body leaves: the four chunk steps, first to last, from the broadcast bias. -/
def blockVal (x0 : Vec F S512x4096 .bf16) (x1 : Vec F S512x512 .i32) (x2 x3 : Vec F S32x512 .f32) (x4 : Vec F S1x512 .f32) :
    FVec F S512x512 .f32 :=
  k0_pay1 (k0_pay28 (xTile x0 3072 (by decide))) (qTile x1 384 (by decide)) (k0_pay29 (gTile x2 24 (by decide))) (k0_pay30 (gTile x3 24 (by decide)))
    (k0_pay31 (qTile x1 384 (by decide))) (k0_pay32 (qTile x1 384 (by decide))) (k0_pay33 (qTile x1 384 (by decide)))
    (k0_pay34 (qTile x1 384 (by decide))) (k0_pay35 (qTile x1 384 (by decide))) (k0_pay36 (qTile x1 384 (by decide))) k0_pay37
  (k0_pay27 (k0_pay19 (xTile x0 2048 (by decide))) (qTile x1 256 (by decide)) (k0_pay20 (gTile x2 16 (by decide))) (k0_pay21 (gTile x3 16 (by decide)))
    (k0_pay22 (qTile x1 256 (by decide))) (k0_pay23 (qTile x1 256 (by decide))) (k0_pay24 (qTile x1 256 (by decide)))
    (k0_pay25 (qTile x1 256 (by decide))) (k0_pay26 (qTile x1 256 (by decide))) 20#32
  (k0_pay18 (k0_pay11 (xTile x0 1024 (by decide))) (qTile x1 128 (by decide)) (k0_pay12 (gTile x2 8 (by decide))) (k0_pay13 (gTile x3 8 (by decide)))
    (k0_pay14 (qTile x1 128 (by decide))) (k0_pay15 (qTile x1 128 (by decide))) (k0_pay16 (qTile x1 128 (by decide))) (k0_pay17 (qTile x1 128 (by decide)))
  (k0_pay10 (k0_pay9 (k0_pay3 (xTile x0 0 (by decide))) (qTile x1 0 (by decide)) (k0_pay4 (gTile x2 0 (by decide))) (k0_pay5 (gTile x3 0 (by decide)))
    (k0_pay6 (qTile x1 0 (by decide))) (k0_pay7 (qTile x1 0 (by decide))) (k0_pay8 (F := F) (qTile x1 0 (by decide)))
  (k0_pay2 (View.ld x4 (Rect.unit ![0, 0] S1x512.size inb_S1x512_S1x512_0_0)))))))

/-- What the run leaves in the output's staging buffer is that block. -/
theorem out_eq (c : Dev nD) (i : grid0.Coords) (arg2 : Memref sig .tc .vmem S512x4096 .bf16) (harg2 : arg2.IsWhole) (arg3 : Memref sig .tc .vmem S512x512 .i32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole)
    (x0 : Vec F S512x4096 .bf16) (x1 : Vec F S512x512 .i32) (x2 : Vec F S32x512 .f32) (x3 : Vec F S32x512 .f32) (x4 : Vec F S1x512 .f32) :
    out0_A_5 c i arg2 harg2 arg3 harg3 arg4 harg4 arg5 harg5 arg6 harg6 arg7 harg7 arg8 harg8 x0 x1 x2 x3 x4 = blockVal x0 x1 x2 x3 x4 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [readCov_cons_unit_zero (S := S512x512) _ hz, View.readAt_eq_ld, harg2.read_unread, harg3.read_unread,
    harg4.read_unread, harg5.read_unread, harg6.read_unread]
  rfl

end Cert.KernelIdeal.Body

end
-- ==== Proof.ChunkAt.lean ====
/-
  One chunk's step read at an index.

  The dequantized tile at row `kk`, column `n` is `(field (kk % 8) of q (kk / 8, n) − z (kk / 128, n)) · s (kk / 128, n)`:
  the interleave puts field `p` of packed row `r` at row `8·r + p`, and the regrouping by 128 rows puts row `kk` in
  group `kk / 128`. The step at `(r, n)` is the accumulator plus the sum over the 1024 rows of `x (r, kk)` times the tile.
-/
import proofs.«420042_j28698971472128_3_alg».proof.Proof.Chunk
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx Cert.QLinear

/-! ## The layout operations at an index -/

section Layout
variable {α : Type}

/-- Regrouping the interleaved rows: row `kk` of the [1024, 512] view is row `kk / 8`, slot `kk % 8` of the
    [128, 8, 512] one, and group `kk / 128`, row `kk % 128` of the [8, 128, 512] one. -/
theorem regroup_apply (c : S128x8x512.Idx → α) (kk : Fin 1024) (n : Fin 512) :
    shapeCast S8x128x512 (shapeCast S1024x512 c shapeCasts_S128x8x512_S1024x512) shapeCasts_S1024x512_S8x128x512
        (ix3 (⟨kk.val / 128, by omega⟩ : Fin 8) (⟨kk.val % 128, by omega⟩ : Fin 128) n)
      = c (ix3 (⟨kk.val / 8, by omega⟩ : Fin 128) (⟨kk.val % 8, by omega⟩ : Fin 8) n) := by
  refine (shapeCast_apply _ shapeCasts_S1024x512_S8x128x512 _ (ix2 kk n) ?_).trans ?_
  · rw [Shape.rowMajor_val_two, Shape.rowMajor_val_three]
    show kk.val * 512 + n.val = ((kk.val / 128) * 128 + kk.val % 128) * 512 + n.val
    omega
  · refine shapeCast_apply _ shapeCasts_S128x8x512_S1024x512 _ _ ?_
    rw [Shape.rowMajor_val_two, Shape.rowMajor_val_three]
    show ((kk.val / 8) * 8 + kk.val % 8) * 512 + n.val = kk.val * 512 + n.val
    omega

/-- A per-group row broadcast over the group's 128 rows reads the group's row. -/
theorem rowBroadcast_apply (z : S8x512.Idx → α) (g : Fin 8) (m : Fin 128) (n : Fin 512) :
    broadcastTo S8x128x512 (shapeCast S8x1x512 z shapeCasts_S8x512_S8x1x512) broadcasts_S8x1x512_S8x128x512 (ix3 g m n)
      = z (ix2 g n) := by
  refine (broadcastTo_apply _ broadcasts_S8x1x512_S8x128x512 (ix3 g m n) (ix3 g (0 : Fin 1) n) ?_).trans ?_
  · intro a
    match a with
    | ⟨0, _⟩ => rfl
    | ⟨1, _⟩ => rfl
    | ⟨2, _⟩ => rfl
  · refine shapeCast_apply _ shapeCasts_S8x512_S8x1x512 _ (ix2 g n) ?_
    rw [Shape.rowMajor_val_two, Shape.rowMajor_val_three]
    show g.val * 512 + n.val = (g.val * 1 + 0) * 512 + n.val
    omega

/-- Eight [128, 1, 512] pieces concatenated along the middle axis: slot `p` of row `r` reads piece `p` at row `r`. -/
theorem interleave_apply (f : Fin 8 → S128x1x512.Idx → α) (r : Fin 128) (n : Fin 512) (p : Fin 8) :
    concatenate S128x8x512 1 [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩]
        concatenates_S128x1x512_S128x1x512_S128x1x512_S128x1x512_S128x1x512_S128x1x512_S128x1x512_S128x1x512_S128x8x512_d1 (ix3 r p n)
      = f p (ix3 r (0 : Fin 1) n) := by
  match p with
  | ⟨0, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨0, by decide⟩ : Fin 8) n)
      0 (show 0 < 8 by decide) S128x1x512 _ rfl rfl 0 rfl (ix3 r (0 : Fin 1) n) (fun b hb => by
        match b with
        | ⟨0, _⟩ => rfl
        | ⟨1, _⟩ => exact absurd rfl hb
        | ⟨2, _⟩ => rfl) rfl
  | ⟨1, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨1, by decide⟩ : Fin 8) n)
      1 (show 1 < 8 by decide) S128x1x512 _ rfl rfl 1 rfl (ix3 r (0 : Fin 1) n) (fun b hb => by
        match b with
        | ⟨0, _⟩ => rfl
        | ⟨1, _⟩ => exact absurd rfl hb
        | ⟨2, _⟩ => rfl) rfl
  | ⟨2, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨2, by decide⟩ : Fin 8) n)
      2 (show 2 < 8 by decide) S128x1x512 _ rfl rfl 2 rfl (ix3 r (0 : Fin 1) n) (fun b hb => by
        match b with
        | ⟨0, _⟩ => rfl
        | ⟨1, _⟩ => exact absurd rfl hb
        | ⟨2, _⟩ => rfl) rfl
  | ⟨3, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨3, by decide⟩ : Fin 8) n)
      3 (show 3 < 8 by decide) S128x1x512 _ rfl rfl 3 rfl (ix3 r (0 : Fin 1) n) (fun b hb => by
        match b with
        | ⟨0, _⟩ => rfl
        | ⟨1, _⟩ => exact absurd rfl hb
        | ⟨2, _⟩ => rfl) rfl
  | ⟨4, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨4, by decide⟩ : Fin 8) n)
      4 (show 4 < 8 by decide) S128x1x512 _ rfl rfl 4 rfl (ix3 r (0 : Fin 1) n) (fun b hb => by
        match b with
        | ⟨0, _⟩ => rfl
        | ⟨1, _⟩ => exact absurd rfl hb
        | ⟨2, _⟩ => rfl) rfl
  | ⟨5, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨5, by decide⟩ : Fin 8) n)
      5 (show 5 < 8 by decide) S128x1x512 _ rfl rfl 5 rfl (ix3 r (0 : Fin 1) n) (fun b hb => by
        match b with
        | ⟨0, _⟩ => rfl
        | ⟨1, _⟩ => exact absurd rfl hb
        | ⟨2, _⟩ => rfl) rfl
  | ⟨6, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨6, by decide⟩ : Fin 8) n)
      6 (show 6 < 8 by decide) S128x1x512 _ rfl rfl 6 rfl (ix3 r (0 : Fin 1) n) (fun b hb => by
        match b with
        | ⟨0, _⟩ => rfl
        | ⟨1, _⟩ => exact absurd rfl hb
        | ⟨2, _⟩ => rfl) rfl
  | ⟨7, _⟩ =>
    exact concatenate_apply_piece (1 : Fin S128x8x512.rank) [⟨S128x1x512, f ⟨0, by decide⟩⟩, ⟨S128x1x512, f ⟨1, by decide⟩⟩, ⟨S128x1x512, f ⟨2, by decide⟩⟩, ⟨S128x1x512, f ⟨3, by decide⟩⟩, ⟨S128x1x512, f ⟨4, by decide⟩⟩, ⟨S128x1x512, f ⟨5, by decide⟩⟩, ⟨S128x1x512, f ⟨6, by decide⟩⟩, ⟨S128x1x512, f ⟨7, by decide⟩⟩] concatenates_S128x1x512_S128x1x512_S128x1x512_S128x1x512_S128x1x512_S128x1x512_S128x1x512_S128x1x512_S128x8x512_d1 (ix3 r (⟨7, by decide⟩ : Fin 8) n)
      7 (show 7 < 8 by decide) S128x1x512 _ rfl rfl 7 rfl (ix3 r (0 : Fin 1) n) (fun b hb => by
        match b with
        | ⟨0, _⟩ => rfl
        | ⟨1, _⟩ => exact absurd rfl hb
        | ⟨2, _⟩ => rfl) rfl

end Layout

/-- One field of the packed tile, as a [128, 1, 512] piece, at row `r`, column `n`: the integer the masked shifted
    word denotes. -/
theorem field_apply (q : IVec S128x512 32) (c : BitVec 32) (r : Fin 128) (n : Fin 512) :
    shapeCast S128x1x512 (sitofp (F := Ideal) .bf16 (andi (shrsi q (broadcast S128x512 c)) (broadcast S128x512 15#32)))
        shapeCasts_S128x512_S128x1x512 (ix3 r (0 : Fin 1) n)
      = (((IntOp.andi (IntOp.shrsi .vector (q (ix2 r n)) c) 15#32).toInt : ℝ) : EReal) := by
  refine (shapeCast_apply _ shapeCasts_S128x512_S128x1x512 _ (ix2 r n) ?_).trans rfl
  rw [Shape.rowMajor_val_two, Shape.rowMajor_val_three]
  show r.val * 512 + n.val = (r.val * 1 + 0) * 512 + n.val
  omega

/-- The interleave: slot `p` of row `r` of the concatenation is field `p` of packed row `r`. -/
theorem fields_apply (q : IVec S128x512 32) (r : Fin 128) (n : Fin 512) (p : Fin 8) :
    concatenate S128x8x512 1 [
      ⟨S128x1x512, shapeCast S128x1x512 (sitofp (F := Ideal) .bf16 (andi (shrsi q (broadcast S128x512 0#32)) (broadcast S128x512 15#32))) shapeCasts_S128x512_S128x1x512⟩,
      ⟨S128x1x512, shapeCast S128x1x512 (sitofp (F := Ideal) .bf16 (andi (shrsi q (broadcast S128x512 4#32)) (broadcast S128x512 15#32))) shapeCasts_S128x512_S128x1x512⟩,
      ⟨S128x1x512, shapeCast S128x1x512 (sitofp (F := Ideal) .bf16 (andi (shrsi q (broadcast S128x512 8#32)) (broadcast S128x512 15#32))) shapeCasts_S128x512_S128x1x512⟩,
      ⟨S128x1x512, shapeCast S128x1x512 (sitofp (F := Ideal) .bf16 (andi (shrsi q (broadcast S128x512 12#32)) (broadcast S128x512 15#32))) shapeCasts_S128x512_S128x1x512⟩,
      ⟨S128x1x512, shapeCast S128x1x512 (sitofp (F := Ideal) .bf16 (andi (shrsi q (broadcast S128x512 16#32)) (broadcast S128x512 15#32))) shapeCasts_S128x512_S128x1x512⟩,
      ⟨S128x1x512, shapeCast S128x1x512 (sitofp (F := Ideal) .bf16 (andi (shrsi q (broadcast S128x512 20#32)) (broadcast S128x512 15#32))) shapeCasts_S128x512_S128x1x512⟩,
      ⟨S128x1x512, shapeCast S128x1x512 (sitofp (F := Ideal) .bf16 (andi (shrsi q (broadcast S128x512 24#32)) (broadcast S128x512 15#32))) shapeCasts_S128x512_S128x1x512⟩,
      ⟨S128x1x512, shapeCast S128x1x512 (sitofp (F := Ideal) .bf16 (andi (shrsi q (broadcast S128x512 28#32)) (broadcast S128x512 15#32))) shapeCasts_S128x512_S128x1x512⟩]
        concatenates_S128x1x512_S128x1x512_S128x1x512_S128x1x512_S128x1x512_S128x1x512_S128x1x512_S128x1x512_S128x8x512_d1 (ix3 r p n)
      = nibR (q (ix2 r n)) p := by
  exact (interleave_apply (fun p : Fin 8 => shapeCast S128x1x512 (sitofp (F := Ideal) .bf16
      (andi (shrsi q (broadcast S128x512 (BitVec.ofNat 32 (4 * p.val)))) (broadcast S128x512 15#32))) shapeCasts_S128x512_S128x1x512)
    r n p).trans (field_apply q _ r n)

/-- The dequantized tile at row `kk`, column `n`. -/
theorem dequant_apply (q : IVec S128x512 32) (zb sb : FVec Ideal S8x512 .bf16) (kk : Fin 1024) (n : Fin 512) :
    dequant (F := Ideal) q zb sb (ix2 kk n)
      = (Cert.QLinear.nibR (q (ix2 ⟨kk.val / 8, by omega⟩ n)) ⟨kk.val % 8, Nat.mod_lt _ (by decide)⟩
          - zb (ix2 ⟨kk.val / 128, by omega⟩ n)) * sb (ix2 ⟨kk.val / 128, by omega⟩ n) := by
  unfold dequant
  refine (shapeCast_apply _ shapeCasts_S8x128x512_S1024x512 (ix2 kk n)
    (ix3 (⟨kk.val / 128, by omega⟩ : Fin 8) (⟨kk.val % 128, by omega⟩ : Fin 128) n) ?_).trans ?_
  · rw [Shape.rowMajor_val_two, Shape.rowMajor_val_three]
    show ((kk.val / 128) * 128 + kk.val % 128) * 512 + n.val = kk.val * 512 + n.val
    omega
  · rw [mulf_apply, subf_apply, rowBroadcast_apply, rowBroadcast_apply, regroup_apply, fields_apply]

/-! ## The product's operand indices -/

theorem lhs_dot_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_dot_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_dot_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_dot_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The step at `(r, n)`: the accumulator plus the sum over the tile's 1024 rows. -/
theorem step_apply (xb : FVec Ideal S512x1024 .bf16) (q : IVec S128x512 32) (zb sb : FVec Ideal S8x512 .bf16)
    (acc : FVec Ideal S512x512 .f32) (r n : Fin 512) :
    step (F := Ideal) xb q zb sb acc (ix2 r n)
      = acc (ix2 r n) + ∑ kk : Fin 1024, xb (ix2 r kk) * dequant (F := Ideal) q zb sb (ix2 kk n) := by
  unfold step
  generalize dequant (F := Ideal) q zb sb = w
  rw [addf_apply]
  refine congrArg (acc (ix2 r n) + ·) ?_
  refine (Ideal.matmul_constant_zero_apply dot_S512x1024_S1024x512_S512x512_1_0_0_1_n_n none xb w (ix2 r n)).trans ?_
  rw [← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 r n) ((ValueIdx.contrEquiv1 dot_S512x1024_S1024x512_S512x512_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x512_S512x512_1_0_0_1_n_n.rhsIdx (ix2 r n) ((ValueIdx.contrEquiv1 dot_S512x1024_S1024x512_S512x512_1_0_0_1_n_n 1024 rfl rfl).symm k) = ix2 k n := funext fun a => Fin.ext (by
    match a with
    | ⟨0, _⟩ => exact (rhs_dot_0 _ _).trans hk
    | ⟨1, _⟩ => exact rhs_dot_1 _ _)
  rw [el, er]

end Cert.KernelIdeal.Chunk

end
-- ==== Proof.BlockAt.lean ====
/-
  The block the body leaves, read at an index, over the extended reals.

  Chunk `c` (of four) adds `∑ kk < 1024, x (r, 1024·c + kk) · w (1024·c + kk, n)` onto the accumulator, where row `k` of
  the block's dequantized weight is `(field (k % 8) of q (k / 8, n) − z (k / 128, n)) · s (k / 128, n)`: the tile loads
  shift the indices by the chunk's offsets (`1024·c` columns of `x`, `128·c` packed rows, `8·c` group rows), the format
  changes of `z` and `s` are the identity, and the first accumulator is the bias row at every row of the block.
-/
import proofs.«420042_j28698971472128_3_alg».proof.Proof.Body
import proofs.«420042_j28698971472128_3_alg».proof.Proof.ChunkAt
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.KernelIdeal.Chunk Cert.QLinear

/-- One term of the contraction at block index `(r, n)`: `x (r, k)` times the dequantized weight `(k, n)` of the block. -/
def term (x0 : Vec Ideal S512x4096 .bf16) (x1 : Vec Ideal S512x512 .i32) (x2 x3 : Vec Ideal S32x512 .f32)
    (r n : Fin 512) (k : Fin 4096) : EReal :=
  x0 (ix2 r k) * ((nibR (x1 (ix2 ⟨k.val / 8, div8_lt k.isLt⟩ n)) ⟨k.val % 8, mod8_lt _⟩
      - x2 (ix2 ⟨k.val / 128, div128_lt k.isLt⟩ n)) * x3 (ix2 ⟨k.val / 128, div128_lt k.isLt⟩ n))

variable {F : FTy → Type} [FloatOps F]

theorem xTile_apply (x0 : Vec F S512x4096 .bf16) (o : Nat) (h) (r : Fin 512) (kk : Fin 1024) (ho : o + kk.val < 4096) :
    xTile x0 o h (ix2 r kk) = x0 (ix2 r ⟨o + kk.val, ho⟩) := by
  show x0 _ = x0 _
  congr 1
  funext a
  apply Fin.ext
  match a with
  | ⟨0, _⟩ => show 0 + 1 * r.val = r.val; omega
  | ⟨1, _⟩ => show o + 1 * kk.val = o + kk.val; omega

theorem qTile_apply (x1 : Vec F S512x512 .i32) (o : Nat) (h) (p : Fin 128) (n : Fin 512) (ho : o + p.val < 512) :
    qTile x1 o h (ix2 p n) = x1 (ix2 ⟨o + p.val, ho⟩ n) := by
  show x1 _ = x1 _
  congr 1
  funext a
  apply Fin.ext
  match a with
  | ⟨0, _⟩ => show o + 1 * p.val = o + p.val; omega
  | ⟨1, _⟩ => show 0 + 1 * n.val = n.val; omega

theorem gTile_apply (x2 : Vec F S32x512 .f32) (o : Nat) (h) (g : Fin 8) (n : Fin 512) (ho : o + g.val < 32) :
    gTile x2 o h (ix2 g n) = x2 (ix2 ⟨o + g.val, ho⟩ n) := by
  show x2 _ = x2 _
  congr 1
  funext a
  apply Fin.ext
  match a with
  | ⟨0, _⟩ => show o + 1 * g.val = o + g.val; omega
  | ⟨1, _⟩ => show 0 + 1 * n.val = n.val; omega

/-- One chunk's sum at a block index: the tiles at offsets `(ox, oq, og) = (1024·c, 128·c, 8·c)` give the terms
    `ox + kk` of the block's contraction. -/
theorem chunk_apply (x0 : Vec Ideal S512x4096 .bf16) (x1 : Vec Ideal S512x512 .i32) (x2 x3 : Vec Ideal S32x512 .f32)
    (ox oq og : Nat) (hx) (hq) (hg) (hoq : ox = 8 * oq) (hog : ox = 128 * og) (hox : ox + 1024 ≤ 4096)
    (xb : FVec Ideal S512x1024 .bf16) (hxb : xb = xTile x0 ox hx)
    (zb : FVec Ideal S8x512 .bf16) (hzb : ∀ i, zb i = gTile x2 og hg i)
    (sb : FVec Ideal S8x512 .bf16) (hsb : ∀ i, sb i = gTile x3 og hg i)
    (acc : FVec Ideal S512x512 .f32) (r n : Fin 512) :
    step (F := Ideal) xb (qTile x1 oq hq) zb sb acc (ix2 r n)
      = acc (ix2 r n) + ∑ kk : Fin 1024, term x0 x1 x2 x3 r n ⟨ox + kk.val, by have := kk.isLt; omega⟩ := by
  rw [step_apply]
  congr 1
  refine Finset.sum_congr rfl fun kk _ => ?_
  have hk : kk.val < 1024 := kk.isLt
  rw [dequant_apply, hxb, xTile_apply x0 ox hx r kk (by omega), hzb, hsb,
    qTile_apply x1 oq hq ⟨kk.val / 8, by omega⟩ n (by show oq + kk.val / 8 < 512; omega),
    gTile_apply x2 og hg ⟨kk.val / 128, by omega⟩ n (by show og + kk.val / 128 < 32; omega),
    gTile_apply x3 og hg ⟨kk.val / 128, by omega⟩ n (by show og + kk.val / 128 < 32; omega)]
  unfold term
  have e8 : (ox + kk.val) / 8 = oq + kk.val / 8 := by omega
  have em : (ox + kk.val) % 8 = kk.val % 8 := by omega
  have e128 : (ox + kk.val) / 128 = og + kk.val / 128 := by omega
  simp only [e8, em, e128]

/-- The first accumulator: the bias row of the block at every row. -/
theorem bias_apply (x4 : Vec Ideal S1x512 .f32) (r n : Fin 512) :
    k0_pay2 (F := Ideal) (View.ld x4 (Rect.unit ![0, 0] S1x512.size inb_S1x512_S1x512_0_0)) (ix2 r n) = x4 (ix2 (0 : Fin 1) n) := by
  unfold k0_pay2
  rw [shapeCast_self, shapeCast_self, shapeCast_self, View.ld_unit_zero (S := S1x512) hz]
  exact broadcastTo_1b_ab_apply x4 broadcasts_S1x512_S512x512 r n

/-- A tile of `x` passes through a cast to its own shape. -/
theorem xcast3 (v : Vec Ideal S512x1024 .bf16) : k0_pay3 (F := Ideal) v = v := by unfold k0_pay3; rw [shapeCast_self]
theorem xcast11 (v : Vec Ideal S512x1024 .bf16) : k0_pay11 (F := Ideal) v = v := by unfold k0_pay11; rw [shapeCast_self]
theorem xcast19 (v : Vec Ideal S512x1024 .bf16) : k0_pay19 (F := Ideal) v = v := by unfold k0_pay19; rw [shapeCast_self]
theorem xcast28 (v : Vec Ideal S512x1024 .bf16) : k0_pay28 (F := Ideal) v = v := by unfold k0_pay28; rw [shapeCast_self]

/-- The zero-point rows change format only: the identity over the extended reals. -/
theorem zcast4 (v : Vec Ideal S8x512 .f32) (i : S8x512.Idx) : k0_pay4 (F := Ideal) v i = v i := by unfold k0_pay4; rw [shapeCast_self]; rfl
theorem zcast12 (v : Vec Ideal S8x512 .f32) (i : S8x512.Idx) : k0_pay12 (F := Ideal) v i = v i := by unfold k0_pay12; rw [shapeCast_self]; rfl
theorem zcast20 (v : Vec Ideal S8x512 .f32) (i : S8x512.Idx) : k0_pay20 (F := Ideal) v i = v i := by unfold k0_pay20; rw [shapeCast_self]; rfl
theorem zcast29 (v : Vec Ideal S8x512 .f32) (i : S8x512.Idx) : k0_pay29 (F := Ideal) v i = v i := by unfold k0_pay29; rw [shapeCast_self]; rfl

/-- The scale rows likewise. -/
theorem scast5 (v : Vec Ideal S8x512 .f32) (i : S8x512.Idx) : k0_pay5 (F := Ideal) v i = v i := rfl
theorem scast13 (v : Vec Ideal S8x512 .f32) (i : S8x512.Idx) : k0_pay13 (F := Ideal) v i = v i := rfl
theorem scast21 (v : Vec Ideal S8x512 .f32) (i : S8x512.Idx) : k0_pay21 (F := Ideal) v i = v i := rfl
theorem scast30 (v : Vec Ideal S8x512 .f32) (i : S8x512.Idx) : k0_pay30 (F := Ideal) v i = v i := rfl

/-- THE BLOCK AT AN INDEX: the bias, then the four chunks' sums added in turn. -/
theorem blockVal_apply (x0 : Vec Ideal S512x4096 .bf16) (x1 : Vec Ideal S512x512 .i32) (x2 x3 : Vec Ideal S32x512 .f32)
    (x4 : Vec Ideal S1x512 .f32) (r n : Fin 512) :
    blockVal (F := Ideal) x0 x1 x2 x3 x4 (ix2 r n)
      = (((x4 (ix2 (0 : Fin 1) n) + ∑ kk : Fin 1024, term x0 x1 x2 x3 r n ⟨kk.val, by have := kk.isLt; omega⟩)
          + ∑ kk : Fin 1024, term x0 x1 x2 x3 r n ⟨1024 + kk.val, by have := kk.isLt; omega⟩)
          + ∑ kk : Fin 1024, term x0 x1 x2 x3 r n ⟨2048 + kk.val, by have := kk.isLt; omega⟩)
          + ∑ kk : Fin 1024, term x0 x1 x2 x3 r n ⟨3072 + kk.val, by have := kk.isLt; omega⟩ := by
  unfold blockVal
  rw [pay1_eq, pay27_eq, pay18_eq, pay9_eq]
  unfold k0_pay10
  dsimp only
  rw [shapeCast_self, shapeCast_self, shapeCast_self, shapeCast_self]
  rw [chunk_apply x0 x1 x2 x3 3072 384 24 _ _ _ rfl rfl (by decide) _ (xcast28 _) _ (zcast29 _) _ (scast30 _),
    chunk_apply x0 x1 x2 x3 2048 256 16 _ _ _ rfl rfl (by decide) _ (xcast19 _) _ (zcast20 _) _ (scast21 _),
    chunk_apply x0 x1 x2 x3 1024 128 8 _ _ _ rfl rfl (by decide) _ (xcast11 _) _ (zcast12 _) _ (scast13 _),
    chunk_apply x0 x1 x2 x3 0 0 0 _ _ _ rfl rfl (by decide) _ (xcast3 _) _ (zcast4 _) _ (scast5 _),
    bias_apply]
  simp only [Nat.zero_add]

end Cert.KernelIdeal.Body

end
-- ==== Proof.Algebra.lean ====
/-
  The two laws over the extended reals that join the kernel's arithmetic to the reference's.

  (1) Re-quantizing a dequantized weight changes nothing. With `q` an integer, `z` a real and a FINITE scale `s`:
      `t = (q − z)·s`, `v = t / s + z`, `u = v + (round v − v)`, and `(u − z)·s = (q − z)·s`.
      For `s ≠ 0` the quotient undoes the product exactly, `v = q` is an integer and rounding fixes it. For `s = 0`
      the quotient `0 / 0` is the junk value `⊥`, which every later step keeps until the last product with `0` makes it
      `0 = (q − z)·0`. An infinite scale would break it, hence the hypothesis.
  (2) A sum over 4096 terms taken in four consecutive runs of 1024, each added in turn onto a starting value, is the
      whole sum plus that value: addition of extended reals is commutative and associative.
-/
import Idealize.ShloMosaic.PureOps.Ideal
import Mathlib.Algebra.BigOperators.Fin

noncomputable section

namespace Cert.QLinear

open Idealize.ShloMosaic

private theorem roundHalfEven_intCast (q : ℤ) : Ideal.roundHalfEven ((q : ℤ) : ℝ) = q := by
  simp [Ideal.roundHalfEven]

theorem requant_eq (q : ℤ) (z : ℝ) (s : EReal) (hs1 : s ≠ ⊤) (hs2 : s ≠ ⊥) :
    ((Ideal.div ((((q : ℝ) : EReal) - (z : EReal)) * s) s + (z : EReal))
        + (Ideal.liftRound Ideal.roundHalfEven (Ideal.div ((((q : ℝ) : EReal) - (z : EReal)) * s) s + (z : EReal))
            - (Ideal.div ((((q : ℝ) : EReal) - (z : EReal)) * s) s + (z : EReal)))
        - (z : EReal)) * s
      = (((q : ℝ) : EReal) - (z : EReal)) * s := by
  induction s with
  | bot => exact absurd rfl hs2
  | top => exact absurd rfl hs1
  | coe r =>
    by_cases hr : r = 0
    · subst hr
      have h0 : (((q : ℝ) : EReal) - (z : EReal)) * ((0 : ℝ) : EReal) = 0 := by
        rw [EReal.coe_zero, mul_zero]
      have hd : Ideal.div (0 : EReal) ((0 : ℝ) : EReal) = ⊥ := by
        rw [Ideal.div, if_pos EReal.coe_zero, if_neg (lt_irrefl _)]
      rw [h0, hd, EReal.bot_add, Ideal.liftRound_bot, EReal.coe_zero, mul_zero]
    · have hv : Ideal.div ((((q : ℝ) : EReal) - (z : EReal)) * (r : EReal)) (r : EReal) + (z : EReal)
          = ((q : ℝ) : EReal) := by
        rw [Ideal.div_coe hr, ← EReal.coe_sub, ← EReal.coe_mul, ← EReal.coe_mul, ← EReal.coe_add]
        congr 1
        field_simp
        ring
      rw [hv, Ideal.liftRound_coe, roundHalfEven_intCast, ← EReal.coe_sub, sub_self, EReal.coe_zero, add_zero]

theorem chunk_sum (f : Fin 4096 → EReal) (b : EReal) :
    (((b + ∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩
      = (∑ k : Fin 4096, f k) + b := by
  have h : (∑ k : Fin 4096, f k)
      = (((∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩ := by
    have e := Fin.sum_univ_add (a := 1024 + 1024 + 1024) (b := 1024) f
    rw [Fin.sum_univ_add (a := 1024 + 1024) (b := 1024), Fin.sum_univ_add (a := 1024) (b := 1024)] at e
    exact e
  rw [h]
  ac_rfl

end Cert.QLinear

end
-- ==== Proof.RefValue.lean ====
/-
  The reference program's result is the specification.

  The reference unpacks the packed weights along the rows (row `k` takes field `k % 8` of packed row `k / 8`) and the
  packed zero points along the columns (column `n` takes field `n % 8` of packed column `n / 8`), dequantizes
  `(q − z)·s` by groups of 128 rows, re-quantizes `v = t / s + z`, rounds through the straight-through form
  `u = v + (round v − v)`, dequantizes again `(u − z)·s`, contracts with `x` and adds the bias. With finite scales the
  re-quantization changes nothing, so the weight at `(k, n)` is the specification's, and the contraction plus the bias
  is the specification's sum.
-/
import proofs.«420042_j28698971472128_3_alg».proof.Proof.Gen.ReferenceIdeal.Read
import proofs.«420042_j28698971472128_3_alg».proof.Proof.Spec
import proofs.«420042_j28698971472128_3_alg».proof.Proof.Algebra
import Idealize.ShloMosaic.Lib.KernelVsHost

noncomputable section

namespace Cert.ReferenceIdeal.RefValue

open Cert.ReferenceIdeal Cert.ReferenceIdeal.Read Idealize.ShloMosaic Idealize.ShloMosaic.ValueIdx Cert.QLinear

/-- The host's shift by `p·4` followed by the mask is field `p`. -/
theorem field_eq (w : BitVec 32) (p : Nat) (hp : p < 8) :
    IntOp.andi (IntOp.shrsi .host w (IntOp.muli (BitVec.ofNat 32 p) 4#32)) 15#32 = nib w ⟨p, hp⟩ := by
  unfold nib
  show _ = IntOp.andi (IntOp.shrsi ArithUnit.vector w (BitVec.ofNat 32 (4 * p))) 15#32
  rw [shrsi_unit .host .vector]
  have h : IntOp.muli (BitVec.ofNat 32 p) 4#32 = BitVec.ofNat 32 (4 * p) := by
    interval_cases p <;> rfl
  rw [h]

/-- The packed zero-point word that column `n` of group `g` reads. -/
theorem zidx (g : Fin 32) (n : Fin 4096) :
    idx_main_v16 (idx_main_v17 (idx_main_v22 (ix2 g n))) = ix2 g ⟨n.val / 8, div8_lt n.isLt⟩ := by
  funext a
  match a with
  | ⟨0, _⟩ => exact Fin.ext (by show (g.val * 4096 + n.val) / 4096 = g.val; have := n.isLt; omega)
  | ⟨1, _⟩ => exact Fin.ext (by show (g.val * 4096 + n.val) / 8 % 512 = n.val / 8; have := n.isLt; have := g.isLt; omega)

theorem zero_point_apply (x2 : IVec Cert.ReferenceIdeal.S32x512 32) (g : Fin 32) (n : Fin 4096) :
    Cert.ReferenceIdeal.Read.val_main_v23 (F := Ideal) x2 (ValueIdx.ix2 g n) = Cert.QLinear.zv x2 g n := by
  rw [val_main_v23_apply, val_main_v22_apply, val_main_v21_apply, val_main_v19_apply, val_main_v17_apply,
    val_main_v16_apply, val_main_v18_apply, val_main_v15_apply, val_main_v14_apply, val_main_v12_apply,
    val_main_v13_apply, val_main_c_1_apply, val_main_v20_apply, val_main_c_2_apply, zidx]
  have hp : ((idx_main_v15 (idx_main_v18 (idx_main_v22 (ix2 g n)))) 0).val = n.val % 8 := by
    show (g.val * 4096 + n.val) % 8 = n.val % 8
    omega
  rw [hp, field_eq _ _ (mod8_lt _)]
  rfl

/-- The packed weight word that row `k`, column `n` reads. -/
theorem qidx (k n : Fin 4096) :
    idx_main_v4 (idx_main_v5 (idx_main_v10 (ix2 k n))) = ix2 ⟨k.val / 8, div8_lt k.isLt⟩ n := by
  funext a
  match a with
  | ⟨0, _⟩ => exact Fin.ext (by show (k.val * 4096 + n.val) / 32768 = k.val / 8; have := n.isLt; omega)
  | ⟨1, _⟩ => exact Fin.ext (by show (k.val * 4096 + n.val) % 4096 = n.val; have := n.isLt; omega)

/-- The unpacked weight at row `k`, column `n`, as a float. -/
theorem qweight_apply (x1 : IVec Cert.ReferenceIdeal.S512x4096 32) (k n : Fin 4096) :
    val_main_v11 (F := Ideal) x1 (ix2 k n) = qv x1 k n := by
  rw [val_main_v11_apply, val_main_v10_apply, val_main_v9_apply, val_main_v7_apply, val_main_v5_apply,
    val_main_v4_apply, val_main_v6_apply, val_main_v3_apply, val_main_v2_apply, val_main_v0_apply,
    val_main_v1_apply, val_main_c_apply, val_main_v8_apply, val_main_c_0_apply, qidx]
  have hp : ((idx_main_v3 (idx_main_v6 (idx_main_v10 (ix2 k n)))) 0).val = k.val % 8 := by
    show (k.val * 4096 + n.val) / 4096 % 8 = k.val % 8
    have := n.isLt
    omega
  rw [hp, field_eq _ _ (mod8_lt _)]
  rfl

/-- Row `r` of group `g` is row `128·g + r` of the unpacked matrix. -/
theorem gidx (k n : Fin 4096) :
    idx_main_v24 (ix3 (⟨k.val / 128, div128_lt k.isLt⟩ : Fin 32) (⟨k.val % 128, Nat.mod_lt _ (by decide)⟩ : Fin 128) n)
      = ix2 k n := by
  funext a
  match a with
  | ⟨0, _⟩ => exact Fin.ext (by show ((k.val / 128 * 128 + k.val % 128) * 4096 + n.val) / 4096 = k.val; have := n.isLt; omega)
  | ⟨1, _⟩ => exact Fin.ext (by show ((k.val / 128 * 128 + k.val % 128) * 4096 + n.val) % 4096 = n.val; have := n.isLt; omega)

/-- The group-shaped index a flat `(k, n)` reads. -/
theorem widx (k n : Fin 4096) :
    idx_main_v42 (ix2 k n)
      = ix3 (⟨k.val / 128, div128_lt k.isLt⟩ : Fin 32) (⟨k.val % 128, Nat.mod_lt _ (by decide)⟩ : Fin 128) n := by
  funext a
  match a with
  | ⟨0, _⟩ => exact Fin.ext (by show (k.val * 4096 + n.val) / 524288 = k.val / 128; have := n.isLt; omega)
  | ⟨1, _⟩ => exact Fin.ext (by show (k.val * 4096 + n.val) / 4096 % 128 = k.val % 128; have := n.isLt; omega)
  | ⟨2, _⟩ => exact Fin.ext (by show (k.val * 4096 + n.val) % 4096 = n.val; have := n.isLt; omega)

/-- A group's row, broadcast over the 128 rows of the group, is read at the group and the column. -/
theorem bidx (g : Fin 32) (r : Fin 128) (n : Fin 4096) :
    idx_main_v26 (idx_main_v27 (ix3 g r n)) = ix2 g n := by
  funext a
  match a with
  | ⟨0, _⟩ => exact Fin.ext (by show ((g.val * 1 + 0) * 4096 + n.val) / 4096 = g.val; have := n.isLt; omega)
  | ⟨1, _⟩ => exact Fin.ext (by show ((g.val * 1 + 0) * 4096 + n.val) % 4096 = n.val; have := n.isLt; omega)

/-- The zero point broadcast over a group's rows. -/
theorem zrow_apply (x2 : IVec Cert.ReferenceIdeal.S32x512 32) (g : Fin 32) (r : Fin 128) (n : Fin 4096) :
    val_main_v26 (F := Ideal) x2 (idx_main_v27 (ix3 g r n)) = zv x2 g n := by
  rw [val_main_v26_apply, bidx, zero_point_apply]

/-- The scale broadcast over a group's rows. -/
theorem srow_apply (x3 : FVec Ideal Cert.ReferenceIdeal.S32x4096 .f32) (g : Fin 32) (r : Fin 128) (n : Fin 4096) :
    val_main_v25 (F := Ideal) x3 (idx_main_v29 (ix3 g r n)) = x3 (ix2 g n) := by
  rw [val_main_v25_apply]
  exact congrArg x3 (bidx g r n)

/-- The reference's weight at row `k`, column `n` is the specification's: the re-quantization changes nothing. -/
theorem weight_apply (x1 : IVec Cert.ReferenceIdeal.S512x4096 32) (x2 : IVec Cert.ReferenceIdeal.S32x512 32)
    (x3 : FVec Ideal Cert.ReferenceIdeal.S32x4096 .f32) (hs : ∀ i, x3 i ≠ ⊤ ∧ x3 i ≠ ⊥) (k n : Fin 4096) :
    val_main_v42 (F := Ideal) x1 x2 x3 (ix2 k n) = wt x1 x2 x3 k n := by
  rw [val_main_v42_apply, widx, val_main_v41_apply, val_main_v39_apply, val_main_v37_apply, val_main_v36_apply,
    val_main_v35_apply, val_main_v34_apply, val_main_v32_apply, val_main_v30_apply, val_main_v28_apply,
    val_main_v24_apply, gidx, qweight_apply,
    val_main_v27_apply, val_main_v33_apply, val_main_v38_apply,
    val_main_v29_apply, val_main_v31_apply, val_main_v40_apply]
  rw [zrow_apply x2, srow_apply x3]
  exact requant_eq _ _ _ (hs _).1 (hs _).2

theorem ref_eq_G (x0 : FVec Ideal Cert.ReferenceIdeal.S8192x4096 .f32) (x1 : IVec Cert.ReferenceIdeal.S512x4096 32)
    (x2 : IVec Cert.ReferenceIdeal.S32x512 32) (x3 : FVec Ideal Cert.ReferenceIdeal.S32x4096 .f32)
    (x4 : FVec Ideal Cert.ReferenceIdeal.S4096 .f32) (hs : ∀ i, x3 i ≠ ⊤ ∧ x3 i ≠ ⊥) :
    Cert.ReferenceIdeal.Read.val_main_v46 (F := Ideal) x0 x1 x2 x3 x4 = Cert.QLinear.G x0 x1 x2 x3 x4 := by
  funext j
  obtain ⟨i, n, rfl⟩ : ∃ i n, j = ix2 i n := ⟨j 0, j 1, eq_ix2 j⟩
  have hl : ∀ k : Fin 4096, lidx_main_v43 (ix2 i n) k = ix2 i k := fun k => by
    funext a
    match a with
    | ⟨0, _⟩ => rfl
    | ⟨1, _⟩ => rfl
  have hr : ∀ k : Fin 4096, ridx_main_v43 (ix2 i n) k = ix2 k n := fun k => by
    funext a
    match a with
    | ⟨0, _⟩ => rfl
    | ⟨1, _⟩ => rfl
  have hb : idx_main_v44 (idx_main_v45 (ix2 i n)) = ix1 n := by
    funext a
    match a with
    | ⟨0, _⟩ => rfl
  rw [val_main_v46_apply, val_main_v43_apply, val_main_v45_apply, val_main_v44_apply, hb]
  show (∑ k : Fin 4096, x0 (lidx_main_v43 (ix2 i n) k) * val_main_v42 (F := Ideal) x1 x2 x3 (ridx_main_v43 (ix2 i n) k))
      + x4 (ix1 n) = (∑ k : Fin 4096, x0 (ix2 i k) * wt x1 x2 x3 k n) + x4 (ix1 n)
  congr 1
  refine Finset.sum_congr rfl fun k _ => ?_
  rw [hl, hr, weight_apply x1 x2 x3 hs]

end Cert.ReferenceIdeal.RefValue

end
-- ==== Proof.KernelValue.lean ====
/-
  The kernel's result array is the specification of the argument arrays.

  At grid point `t = (t / 8, t % 8)` the body reads block `t / 8` of the rows of `x` and block `t % 8` of the columns
  of the packed weights, zero points, scales and bias, and writes block `(t / 8, t % 8)` of the result. Read at a block
  index `(r, n)`, with `R = 512·(t / 8) + r` and `N = 512·(t % 8) + n`, what it writes is
      ((((bias N + Σ₀) + Σ₁) + Σ₂) + Σ₃),   Σ_c = ∑ kk < 1024, x (R, 1024·c + kk) · W (1024·c + kk, N),
  which is `(∑ k < 4096, x (R, k) · W (k, N)) + bias N`, the specification at `(R, N)`. The arrays the windows stage
  are the arguments themselves, or host images of them: `x` after a change of format (the identity here), the zero
  points unpacked on the host (the same chain of operations as the reference's), the bias as one row.
  The blocks tile the result array, so the array after the run is the specification everywhere.
-/
import proofs.«420042_j28698971472128_3_alg».proof.Proof.Windows
import proofs.«420042_j28698971472128_3_alg».proof.Proof.BlockAt
import proofs.«420042_j28698971472128_3_alg».proof.Proof.Algebra
import proofs.«420042_j28698971472128_3_alg».proof.Proof.RefValue
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Windows Cert.KernelIdeal.Body Cert.QLinear

variable (m : (ℓ : Loc nD τ sig) → Buf (Elt Ideal) ℓ) (ρ : Dev nD → PrngReg)

/-- Core `c`'s argument arrays, named at their literal types. -/
abbrev xA (c : Dev nD) : S8192x4096.Idx → EReal := m ((c : Thread nD τ).loc main_arg0)
abbrev qA (c : Dev nD) : S512x4096.Idx → BitVec 32 := m ((c : Thread nD τ).loc main_arg1)
abbrev zA (c : Dev nD) : S32x512.Idx → BitVec 32 := m ((c : Thread nD τ).loc main_arg2)
abbrev sA (c : Dev nD) : S32x4096.Idx → EReal := m ((c : Thread nD τ).loc main_arg3)
abbrev bA (c : Dev nD) : S4096.Idx → EReal := m ((c : Thread nD τ).loc main_arg4)

/-! ## The staged arrays as functions of the arguments -/

/-- `x` staged in the narrower format: the argument itself over the extended reals. -/
theorem xarr_apply (c : Dev nD) (i : S8192x4096.Idx) : xarr m c i = xA m c i := by
  have e : (V m c main_v13 : S8192x4096.Idx → Elt Ideal .bf16) = truncf (F := Ideal) .bf16 (m ((c : Thread nD τ).loc main_arg0)) bitsLt_bf16_f32 := by
    dsimp only [Gen.V, Gen.hostOps0]
    after_results
  show V m c main_v13 i = _
  rw [e]
  rfl

/-- The zero points the host unpacks: field `n % 8` of the packed column `n / 8`. -/
theorem zarr_apply (c : Dev nD) (g : Fin 32) (n : Fin 4096) :
    zarr m c (ix2 g n) = zv (zA m c) g n := by
  have e : (V m c main_v11 : S32x4096.Idx → Elt Ideal .f32)
      = Cert.ReferenceIdeal.Read.val_main_v23 (F := Ideal) (m ((c : Thread nD τ).loc main_arg2)) := by
    dsimp only [Gen.V, Gen.hostOps0]
    after_results
    rfl
  show V m c main_v11 (ix2 g n) = _
  rw [e]
  exact Cert.ReferenceIdeal.RefValue.zero_point_apply _ g n

/-- The bias as one row. -/
theorem barr_apply (c : Dev nD) (z : Fin 1) (n : Fin 4096) :
    barr m c (ix2 z n) = bA m c (ix1 n) := by
  have e : (V m c main_v12 : S1x4096.Idx → Elt Ideal .f32)
      = shapeCast S1x4096 (m ((c : Thread nD τ).loc main_arg4)) shapeCasts_S4096_S1x4096 := by
    dsimp only [Gen.V, Gen.hostOps0]
    after_results
    rfl
  show V m c main_v12 (ix2 z n) = _
  rw [e]
  exact shapeCast_a_1a_apply _ shapeCasts_S4096_S1x4096 z n

theorem qarr_eq (c : Dev nD) : qarr m c = qA m c := V_main_arg1 m c
theorem sarr_eq (c : Dev nD) : sarr m c = sA m c := V_main_arg3 m c

/-! ## The result -/

/-- The specification of core `c`'s argument arrays. -/
abbrev spec (c : Dev nD) : S8192x4096.Idx → EReal :=
  G (xA m c) (qA m c) (zA m c) (sA m c) (bA m c)

/-- One term of the block's contraction is the specification's term at the array index. -/
theorem term_eq (c : Dev nD) (t : Fin cfg0.N) (r n : Fin 512) (k : Fin 4096) :
    term (xblk m c t) (qblk m c t) (zblk m c t) (sblk m c t) r n k
      = xA m c (ix2 ⟨512 * (t.val / 8) + r.val, row_lt t r⟩ k)
        * wt (qA m c) (zA m c) (sA m c) k ⟨512 * (t.val % 8) + n.val, col_lt t n⟩ := by
  unfold term wt qv
  rw [xblk_apply, qblk_apply, zblk_apply, sblk_apply, xarr_apply, zarr_apply, qarr_eq, sarr_eq]

/-- WHAT POINT `t` WRITES BACK is block `t` of the specification. -/
theorem flushed_eq (c : Dev nD) (t : Fin cfg0.N) :
    (dats m 0 c).flushed 5 t = ((cfg0.win 5).blk t).view.read (Elt Ideal) (spec m c) := by
  rw [Cert.KernelIdeal.Value.flushed5_A, out_eq]
  funext j
  obtain ⟨r, n, rfl⟩ : ∃ (r n : Fin 512), j = ix2 r n := ⟨j 0, j 1, eq_ix2 j⟩
  show blockVal (xblk m c t) (qblk m c t) (zblk m c t) (sblk m c t) (bblk m c t) (ix2 r n)
    = spec m c (((cfg0.win 5).blk t).view.emb (ix2 r n))
  rw [blockVal_apply, oblk_emb, chunk_sum (term (xblk m c t) (qblk m c t) (zblk m c t) (sblk m c t) r n), bblk_apply, barr_apply]
  show _ = (∑ k : Fin 4096, _) + _
  congr 1
  exact Finset.sum_congr rfl fun k _ => term_eq m c t r n k

/-- So the result array after the run is the specification: the blocks tile it. -/
theorem final (c : Dev nD) : (dats m 0 c).arrAt 5 cfg0.N = spec m c :=
  (dats m 0 c).arrAt_eq_of_cover 5 (spec m c) (fun t _ => flushed_eq m c t) cover5

/-- The run, read: the result at the specification of the arguments, the arguments unchanged. -/
theorem run : θ_run defs (onTc (τ := τ) (main (F := Ideal))) ⟨m, fun _ => 0, ρ⟩ fun r => ∀ c : Dev nD,
      r.2.mem ((c : Thread nD τ).loc main_v14) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Result

end
-- ==== Proof.Finite.lean ====
/-
  The precondition makes every scale finite.

  The precondition is the conjunction of three statements "every element x of the array has |x| < +∞", one per float
  operand. Over the extended reals |x| is max x (-x) and +∞ is the top element, so max x (-x) < ⊤ says x is neither ⊤
  (then max is ⊤) nor ⊥ (then -x is ⊤).
-/
import proofs.«420042_j28698971472128_3_alg».proof.Pre_finite_inputs
import Idealize.ShloMosaic.PureOps.Ideal
import Idealize.ShloMosaic.Lib.ReduceAll
import Idealize.ShloMosaic.Lib.ValueIdx

noncomputable section

namespace Cert.QLinear

open Idealize.ShloMosaic Idealize.ShloMosaic.ValueIdx

/-- The rank-0 shape has one index. -/
instance : Subsingleton Cert.Pre_finite_inputs.S_.Idx := ⟨fun a b => funext fun d => d.elim0⟩

/-- An extended real whose absolute value is below ⊤ is neither infinity. -/
theorem ne_top_bot_of_abs_lt_top (x : EReal) (hx : max x (-x) < ⊤) : x ≠ ⊤ ∧ x ≠ ⊥ := by
  constructor
  · rintro rfl
    simp at hx
  · rintro rfl
    simp at hx

theorem scales_finite [Cert.Pre_finite_inputs.Facts]
    (a0 : FVec Ideal Cert.Pre_finite_inputs.S8192x4096 .f32) (a1 : IVec Cert.Pre_finite_inputs.S512x4096 32)
    (a2 : IVec Cert.Pre_finite_inputs.S32x512 32) (a3 : FVec Ideal Cert.Pre_finite_inputs.S32x4096 .f32)
    (a4 : FVec Ideal Cert.Pre_finite_inputs.S4096 .f32)
    (h : Cert.Pre_finite_inputs.fn (F := Ideal) a0 a1 a2 a3 a4 = fun _ => 1#1) :
    ∀ i, a3 i ≠ ⊤ ∧ a3 i ≠ ⊥ := by
  intro i
  have h0 := congrFun h ix0
  dsimp only [Cert.Pre_finite_inputs.fn] at h0
  have h1 := (IntOp.andi_eq_one.1 h0).1
  have h2 := (IntOp.andi_eq_one.1 h1).2
  have h3 := Host.reduce_andi_all _ _ _ _ _ h2 i
  have h4 : Ideal.cmp .olt (max (a3 i) (-(a3 i))) (Ideal.ofBits .f32 0x7F800000#32) = 1#1 := h3
  have e : Ideal.ofBits .f32 0x7F800000#32 = (⊤ : EReal) := by simp [Ideal.ofBits, Ideal.ieee]
  rw [e] at h4
  change BitVec.ofBool (decide (max (a3 i) (-(a3 i)) < (⊤ : EReal))) = 1#1 at h4
  apply ne_top_bot_of_abs_lt_top
  by_contra hn
  rw [decide_eq_false hn] at h4
  exact absurd h4 (by decide)

end Cert.QLinear

end
-- ==== Proof.lean ====
/-
  A 4-bit quantized linear layer against its jnp reference, over the extended reals.

  Both programs compute `out = x · W + bias` with `W (k, n) = (q (k, n) − z (k / 128, n)) · s (k / 128, n)`, `q` and `z`
  4-bit fields of packed words (Proof/Spec.lean). The kernel forms `W` tile by tile and accumulates the product over
  four chunks of 1024 rows on top of the bias (Proof/Chunk.lean, ChunkAt.lean, Body.lean, BlockAt.lean), one 512 × 512
  block of the result per grid point (Proof/Windows.lean, KernelValue.lean). The reference dequantizes, re-quantizes with a
  rounding and dequantizes again before one whole product: with a FINITE scale the round trip is the identity
  (Proof/Algebra.lean), which is where the precondition is used (Proof/Finite.lean, RefValue.lean); regrouping the sum
  needs only commutativity and associativity of addition.
  The three frames are the generated runs; the idealization rewrote nothing, so `preserves` is trivial.
-/
import proofs.«420042_j28698971472128_3_alg».proof.Defs
import proofs.«420042_j28698971472128_3_alg».proof.Proof.Gen.Kernel
import proofs.«420042_j28698971472128_3_alg».proof.Proof.Gen.Kernel.Skeleton
import proofs.«420042_j28698971472128_3_alg».proof.Proof.Gen.Kernel.Launch
import proofs.«420042_j28698971472128_3_alg».proof.Proof.Gen.Kernel.Points
import proofs.«420042_j28698971472128_3_alg».proof.Proof.Gen.Kernel.Frame
import proofs.«420042_j28698971472128_3_alg».proof.Proof.Gen.KernelIdeal
import proofs.«420042_j28698971472128_3_alg».proof.Proof.Gen.KernelIdeal.Skeleton
import proofs.«420042_j28698971472128_3_alg».proof.Proof.Gen.KernelIdeal.Launch
import proofs.«420042_j28698971472128_3_alg».proof.Proof.Gen.KernelIdeal.Points
import proofs.«420042_j28698971472128_3_alg».proof.Proof.Gen.KernelIdeal.Frame
import proofs.«420042_j28698971472128_3_alg».proof.Proof.Gen.ReferenceIdeal
import proofs.«420042_j28698971472128_3_alg».proof.Proof.Gen.Pre_finite_inputs
import proofs.«420042_j28698971472128_3_alg».proof.Proof.Gen.KernelIdeal.Value
import proofs.«420042_j28698971472128_3_alg».proof.Proof.Gen.ReferenceIdeal.Run
import proofs.«420042_j28698971472128_3_alg».proof.Proof.Gen.ReferenceIdeal.Read
import proofs.«420042_j28698971472128_3_alg».proof.Proof.KernelValue
import proofs.«420042_j28698971472128_3_alg».proof.Proof.RefValue
import proofs.«420042_j28698971472128_3_alg».proof.Proof.Finite
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the specification of its arguments, and the
    reference's at the same function of arguments that agree: the scales are finite by the precondition, so the
    reference's re-quantization is the identity. -/
theorem algebraic : Cert.algebraic_KernelIdeal_ReferenceIdeal := by
  intro m ρ m' ρ' hpre hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1,
    (hagree c).2.2.2.2]
  exact Cert.ReferenceIdeal.RefValue.ref_eq_G _ _ _ _ _ (Cert.QLinear.scales_finite _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
